-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x768 : Shape := ⟨3, ![128, 128, 768]⟩
abbrev S768x768 : Shape := ⟨2, ![768, 768]⟩
abbrev S1x768 : Shape := ⟨2, ![1, 768]⟩
abbrev S768x384 : Shape := ⟨2, ![768, 384]⟩
abbrev S1x384 : Shape := ⟨2, ![1, 384]⟩
abbrev S_ : Shape := ⟨0, ![]⟩

class Facts : Prop where
  bcast_S_S128x128x768 : S_.BroadcastsInDim S128x128x768 (![] : Fin 0 → Fin S128x128x768.rank)
  reducesTo_S128x128x768_S_d0_1_2 : S128x128x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S1x768 : S_.BroadcastsInDim S1x768 (![] : Fin 0 → Fin S1x768.rank)
  reducesTo_S1x768_S_d0_1 : S1x768.ReducesTo [0, 1] S_
  bcast_S_S768x384 : S_.BroadcastsInDim S768x384 (![] : Fin 0 → Fin S768x384.rank)
  reducesTo_S768x384_S_d0_1 : S768x384.ReducesTo [0, 1] S_
  bcast_S_S1x384 : S_.BroadcastsInDim S1x384 (![] : Fin 0 → Fin S1x384.rank)
  reducesTo_S1x384_S_d0_1 : S1x384.ReducesTo [0, 1] S_

variable [Facts]

def fn_part1 {F : FTy → Type} [FloatOps F] (main_arg4 : FVec F S1x384 .f32) (main_v13 : IVec S_ 1) (main_v16 : IVec S768x384 1) : IVec S_ 1 :=
  let main_c_5 : IVec S_ 1 := constantI S_ 1 1#1
  let main_v17 : IVec S_ 1 := (fun x v => Host.reduce IntOp.andi x v reducesTo_S768x384_S_d0_1 h_S_) main_v16 main_c_5
  let main_v18 : IVec S_ 1 := andi main_v13 main_v17
  let main_v19 : FVec F S1x384 .f32 := Host.absf main_arg4
  let main_cst_6 : FVec F S_ .f32 := constant S_ .f32 0x7F800000#32
  let main_v20 : FVec F S1x384 .f32 := broadcastInDim S1x384 ![] bcast_S_S1x384 main_cst_6
  let main_v21 : IVec S1x384 1 := cmpf .olt main_v19 main_v20
  let main_c_7 : IVec S_ 1 := constantI S_ 1 1#1
  let main_v22 : IVec S_ 1 := (fun x v => Host.reduce IntOp.andi x v reducesTo_S1x384_S_d0_1 h_S_) main_v21 main_c_7
  let main_v23 : IVec S_ 1 := andi main_v18 main_v22
  main_v23

def fn {F : FTy → Type} [FloatOps F] (main_arg0 : FVec F S128x128x768 .f32) (main_arg1 : FVec F S768x768 .f32) (main_arg2 : FVec F S1x768 .f32) (main_arg3 : FVec F S768x384 .f32) (main_arg4 : FVec F S1x384 .f32) : IVec S_ 1 :=
  let main_v0 : FVec F S128x128x768 .f32 := Host.absf main_arg0
  let main_cst : FVec F S_ .f32 := constant S_ .f32 0x7F800000#32
  let main_v1 : FVec F S128x128x768 .f32 := broadcastInDim S128x128x768 ![] bcast_S_S128x128x768 main_cst
  let main_v2 : IVec S128x128x768 1 := cmpf .olt main_v0 main_v1
  let main_c : IVec S_ 1 := constantI S_ 1 1#1
  let main_v3 : IVec S_ 1 := (fun x v => Host.reduce IntOp.andi x v reducesTo_S128x128x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S1x768 .f32 := Host.absf main_arg2
  let main_cst_2 : FVec F S_ .f32 := constant S_ .f32 0x7F800000#32
  let main_v10 : FVec F S1x768 .f32 := broadcastInDim S1x768 ![] bcast_S_S1x768 main_cst_2
  let main_v11 : IVec S1x768 1 := cmpf .olt main_v9 main_v10
  let main_c_3 : IVec S_ 1 := constantI S_ 1 1#1
  let main_v12 : IVec S_ 1 := (fun x v => Host.reduce IntOp.andi x v reducesTo_S1x768_S_d0_1 h_S_) main_v11 main_c_3
  let main_v13 : IVec S_ 1 := andi main_v8 main_v12
  let main_v14 : FVec F S768x384 .f32 := Host.absf main_arg3
  let main_cst_4 : FVec F S_ .f32 := constant S_ .f32 0x7F800000#32
  let main_v15 : FVec F S768x384 .f32 := broadcastInDim S768x384 ![] bcast_S_S768x384 main_cst_4
  let main_v16 : IVec S768x384 1 := cmpf .olt main_v14 main_v15
  fn_part1 (F := F) main_arg4 main_v13 main_v16
-- ==== Kernel.lean ====
abbrev S128x128x768 : Shape := ⟨3, ![128, 128, 768]⟩
abbrev S768x768 : Shape := ⟨2, ![768, 768]⟩
abbrev S1x768 : Shape := ⟨2, ![1, 768]⟩
abbrev S768x384 : Shape := ⟨2, ![768, 384]⟩
abbrev S1x384 : Shape := ⟨2, ![1, 384]⟩
abbrev S128x384 : Shape := ⟨2, ![128, 384]⟩
abbrev S64x64x768 : Shape := ⟨3, ![64, 64, 768]⟩
abbrev S64x384 : Shape := ⟨2, ![64, 384]⟩
abbrev S64x768 : Shape := ⟨2, ![64, 768]⟩
abbrev S64 : Shape := ⟨1, ![64]⟩
abbrev S64x1 : Shape := ⟨2, ![64, 1]⟩

abbrev nBuf : Space → Nat
  | .hbm => 6
  | .vmem => 9
  | .smem => 0
  | _ => 0

abbrev bufTy : (tb : Table) → Fin (tcTables nBuf tb) → BufTy
  | .hbm, ⟨0, _⟩ => ⟨S128x128x768, .f32⟩
  | .hbm, ⟨1, _⟩ => ⟨S768x768, .f32⟩
  | .hbm, ⟨2, _⟩ => ⟨S1x768, .f32⟩
  | .hbm, ⟨3, _⟩ => ⟨S768x384, .f32⟩
  | .hbm, ⟨4, _⟩ => ⟨S1x384, .f32⟩
  | .hbm, ⟨5, _⟩ => ⟨S128x384, .f32⟩
  | .local _ .vmem, ⟨0, _⟩ => ⟨S64x64x768, .f32⟩
  | .local _ .vmem, ⟨1, _⟩ => ⟨S64x64x768, .f32⟩
  | .local _ .vmem, ⟨2, _⟩ => ⟨S768x768, .f32⟩
  | .local _ .vmem, ⟨3, _⟩ => ⟨S1x768, .f32⟩
  | .local _ .vmem, ⟨4, _⟩ => ⟨S768x384, .f32⟩
  | .local _ .vmem, ⟨5, _⟩ => ⟨S1x384, .f32⟩
  | .local _ .vmem, ⟨6, _⟩ => ⟨S64x384, .f32⟩
  | .local _ .vmem, ⟨7, _⟩ => ⟨S64x384, .f32⟩
  | .local _ .vmem, ⟨8, _⟩ => ⟨S64x768, .f32⟩
  | _, _ => ⟨S128x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_5 : BitVec 32 := 0#32
  let v10 : BitVec 1 := Scalar.cmpi .ne v9 c0_i32_5
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S64x64x768_S64x64x768_0_0_0 : ∀ a, (![0, 0, 0] : Fin 3 → Nat) a + S64x64x768.size a ≤ S64x64x768.size a
  h_S64x64x768 : 0 < S64x64x768.numel
  reduces_S64x64x768_S64x768 : S64x64x768.Reduces [1] S64x768
  inb_S64x768_S64x768_0_0 : ∀ a, (![0, 0] : Fin 2 → Nat) a + S64x768.size a ≤ S64x768.size a
  h_S64x768 : 0 < S64x768.numel
  shapeCasts_S64x768_S64x768 : S64x768.ShapeCasts S64x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  broadcasts_S1x768_S64x768 : S1x768.Broadcasts S64x768
  inb_S768x384_S768x384_0_0 : ∀ a, (![0, 0] : Fin 2 → Nat) a + S768x384.size a ≤ S768x384.size a
  h_S768x384 : 0 < S768x384.numel
  inb_S1x384_S1x384_0_0 : ∀ a, (![0, 0] : Fin 2 → Nat) a + S1x384.size a ≤ S1x384.size a
  h_S1x384 : 0 < S1x384.numel
  broadcasts_S1x384_S64x384 : S1x384.Broadcasts S64x384
  reduces_S64x384_S64 : S64x384.Reduces [1] S64
  shapeCasts_S64_S64x1 : S64.ShapeCasts S64x1
  broadcasts_S64x1_S64x384 : S64x1.Broadcasts S64x384
  inb_S64x384_S64x384_0_0 : ∀ a, (![0, 0] : Fin 2 → Nat) a + S64x384.size a ≤ S64x384.size a
  h_S64x384 : 0 < S64x384.numel
  dot_S64x768_S768x768_S64x768_1_0_0_1_n_n_wf : DotDims.WF S64x768 S768x768 S64x768 [1] [0] [0] [1] [] []
  dot_S64x768_S768x384_S64x384_1_0_0_1_n_n_wf : DotDims.WF S64x768 S768x384 S64x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x768.size a ≤ S128x128x768.size a
  hwx0_0 : ∀ i : grid0.Coords, EltTy.bits .f32 = 32 ∨ (Rect.block (s := S128x128x768) S64x64x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x384.size a ≤ S768x384.size a
  hwx0_3 : ∀ i : grid0.Coords, EltTy.bits .f32 = 32 ∨ (Rect.block (s := S768x384) S768x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x384.size a ≤ S128x384.size a
  hwx0_5 : ∀ i : grid0.Coords, EltTy.bits .f32 = 32 ∨ (Rect.block (s := S128x384) S64x384.size (cc0_transform_5 i) (hinb0_5 i)).WholeWords (EltTy.packing .f32)

variable [Facts₀]

def dot_S64x768_S768x768_S64x768_1_0_0_1_n_n : DotDims S64x768 S768x768 S64x768 where
  lhsContracting := [1]
  rhsContracting := [0]
  lhsNonContracting := [0]
  rhsNonContracting := [1]
  lhsBatch := []
  rhsBatch := []
  wf := dot_S64x768_S768x768_S64x768_1_0_0_1_n_n_wf
def dot_S64x768_S768x384_S64x384_1_0_0_1_n_n : DotDims S64x768 S768x384 S64x384 where
  lhsContracting := [1]
  rhsContracting := [0]
  lhsNonContracting := [0]
  rhsNonContracting := [1]
  lhsBatch := []
  rhsBatch := []
  wf := dot_S64x768_S768x384_S64x384_1_0_0_1_n_n_wf

abbrev win0_0 : Pipeline.Window sig grid0 :=
  Pipeline.Window.ofSpec (Memref.whole main_arg0) S64x64x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S128x128x768 : Shape := ⟨3, ![128, 128, 768]⟩
abbrev S768x768 : Shape := ⟨2, ![768, 768]⟩
abbrev S1x768 : Shape := ⟨2, ![1, 768]⟩
abbrev S768x384 : Shape := ⟨2, ![768, 384]⟩
abbrev S1x384 : Shape := ⟨2, ![1, 384]⟩
abbrev S128x384 : Shape := ⟨2, ![128, 384]⟩
abbrev S64x64x768 : Shape := ⟨3, ![64, 64, 768]⟩
abbrev S64x384 : Shape := ⟨2, ![64, 384]⟩
abbrev S64x768 : Shape := ⟨2, ![64, 768]⟩
abbrev S64 : Shape := ⟨1, ![64]⟩
abbrev S64x1 : Shape := ⟨2, ![64, 1]⟩

abbrev nBuf : Space → Nat
  | .hbm => 6
  | .vmem => 9
  | .smem => 0
  | _ => 0

abbrev bufTy : (tb : Table) → Fin (tcTables nBuf tb) → BufTy
  | .hbm, ⟨0, _⟩ => ⟨S128x128x768, .f32⟩
  | .hbm, ⟨1, _⟩ => ⟨S768x768, .f32⟩
  | .hbm, ⟨2, _⟩ => ⟨S1x768, .f32⟩
  | .hbm, ⟨3, _⟩ => ⟨S768x384, .f32⟩
  | .hbm, ⟨4, _⟩ => ⟨S1x384, .f32⟩
  | .hbm, ⟨5, _⟩ => ⟨S128x384, .f32⟩
  | .local _ .vmem, ⟨0, _⟩ => ⟨S64x64x768, .f32⟩
  | .local _ .vmem, ⟨1, _⟩ => ⟨S64x64x768, .f32⟩
  | .local _ .vmem, ⟨2, _⟩ => ⟨S768x768, .f32⟩
  | .local _ .vmem, ⟨3, _⟩ => ⟨S1x768, .f32⟩
  | .local _ .vmem, ⟨4, _⟩ => ⟨S768x384, .f32⟩
  | .local _ .vmem, ⟨5, _⟩ => ⟨S1x384, .f32⟩
  | .local _ .vmem, ⟨6, _⟩ => ⟨S64x384, .f32⟩
  | .local _ .vmem, ⟨7, _⟩ => ⟨S64x384, .f32⟩
  | .local _ .vmem, ⟨8, _⟩ => ⟨S64x768, .f32⟩
  | _, _ => ⟨S128x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S64x768_S64x768_0_0 : ∀ a, (![0, 0] : Fin 2 → Nat) a + S64x768.size a ≤ S64x768.size a
  h_S64x768 : 0 < S64x768.numel
  shapeCasts_S64x768_S64x768 : S64x768.ShapeCasts S64x768
  inb_S64x64x768_S64x64x768_0_0_0 : ∀ a, (![0, 0, 0] : Fin 3 → Nat) a + S64x64x768.size a ≤ S64x64x768.size a
  h_S64x64x768 : 0 < S64x64x768.numel
  reduces_S64x64x768_S64x768 : S64x64x768.Reduces [1] S64x768
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  broadcasts_S1x768_S64x768 : S1x768.Broadcasts S64x768
  inb_S768x384_S768x384_0_0 : ∀ a, (![0, 0] : Fin 2 → Nat) a + S768x384.size a ≤ S768x384.size a
  h_S768x384 : 0 < S768x384.numel
  inb_S1x384_S1x384_0_0 : ∀ a, (![0, 0] : Fin 2 → Nat) a + S1x384.size a ≤ S1x384.size a
  h_S1x384 : 0 < S1x384.numel
  broadcasts_S1x384_S64x384 : S1x384.Broadcasts S64x384
  reduces_S64x384_S64 : S64x384.Reduces [1] S64
  shapeCasts_S64_S64x1 : S64.ShapeCasts S64x1
  broadcasts_S64x1_S64x384 : S64x1.Broadcasts S64x384
  inb_S64x384_S64x384_0_0 : ∀ a, (![0, 0] : Fin 2 → Nat) a + S64x384.size a ≤ S64x384.size a
  h_S64x384 : 0 < S64x384.numel
  dot_S64x768_S768x768_S64x768_1_0_0_1_n_n_wf : DotDims.WF S64x768 S768x768 S64x768 [1] [0] [0] [1] [] []
  dot_S64x768_S768x384_S64x384_1_0_0_1_n_n_wf : DotDims.WF S64x768 S768x384 S64x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x768.size a ≤ S128x128x768.size a
  hwx0_0 : ∀ i : grid0.Coords, EltTy.bits .f32 = 32 ∨ (Rect.block (s := S128x128x768) S64x64x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x384.size a ≤ S768x384.size a
  hwx0_3 : ∀ i : grid0.Coords, EltTy.bits .f32 = 32 ∨ (Rect.block (s := S768x384) S768x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x384.size a ≤ S128x384.size a
  hwx0_5 : ∀ i : grid0.Coords, EltTy.bits .f32 = 32 ∨ (Rect.block (s := S128x384) S64x384.size (cc0_transform_5 i) (hinb0_5 i)).WholeWords (EltTy.packing .f32)

variable [Facts₀]

def dot_S64x768_S768x768_S64x768_1_0_0_1_n_n : DotDims S64x768 S768x768 S64x768 where
  lhsContracting := [1]
  rhsContracting := [0]
  lhsNonContracting := [0]
  rhsNonContracting := [1]
  lhsBatch := []
  rhsBatch := []
  wf := dot_S64x768_S768x768_S64x768_1_0_0_1_n_n_wf
def dot_S64x768_S768x384_S64x384_1_0_0_1_n_n : DotDims S64x768 S768x384 S64x384 where
  lhsContracting := [1]
  rhsContracting := [0]
  lhsNonContracting := [0]
  rhsNonContracting := [1]
  lhsBatch := []
  rhsBatch := []
  wf := dot_S64x768_S768x384_S64x384_1_0_0_1_n_n_wf

abbrev win0_0 : Pipeline.Window sig grid0 :=
  Pipeline.Window.ofSpec (Memref.whole main_arg0) S64x64x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== Proof.KernelPieces.lean ====
/-
  What one run of the kernel body leaves behind, read as values.

  The accumulator of sequence sums lives in a scratch buffer that is carried from one grid point to the next.
  At the first sequence step of a batch half the body stores the tile's sequence sums into it; at the second it
  stores the old contents plus the tile's sums, reads the result back, and stores the head of that sum into the
  output block.  Each store covers its whole buffer, so what a buffer holds afterwards is the payload of the last
  store into it, and a load of a buffer reads the contents it is owned at.
-/
import proofs.«134908_g2000004684805239_pallasbulk_542_8_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First sequence step: the accumulator is left at the tile's sequence sums. -/
theorem scratch_A (c : Dev nD) (i : grid0.Coords) (arg2 : Memref sig .tc .vmem S64x64x768 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S768x384 .f32) (harg5 : arg5.IsWhole) (arg6 : Memref sig .tc .vmem S1x384 .f32) (harg6 : arg6.IsWhole) (arg7 : Memref sig .tc .vmem S64x384 .f32) (harg7 : arg7.IsWhole) (arg8 : Memref sig .tc .vmem S64x768 .f32) (harg8 : arg8.IsWhole) (hc0 : cond0_0 i) (hc1 : ¬cond0_1 i) (hc2 : ¬cond0_2 i)
    (x0 : Vec F S64x64x768 .f32) (x1 : Vec F S768x768 .f32) (x2 : Vec F S1x768 .f32) (x3 : Vec F S768x384 .f32) (x4 : Vec F S1x384 .f32) :
    sout0_A_0 c i arg2 harg2 arg3 harg3 arg4 harg4 arg5 harg5 arg6 harg6 arg7 harg7 arg8 harg8 hc0 hc1 hc2 x0 x1 x2 x3 x4 = k0_pay2 x0 := by
  unfold sout0_A_0
  rw [View.read_writes_eq_canon _ _ _ (scover0_A_0 c i arg2 harg2 arg3 harg3 arg4 harg4 arg5 harg5 arg6 harg6 arg7 harg7 arg8 harg8 hc0 hc1 hc2 x0 x1 x2 x3 x4)]
  unfold kernelRun0_A
  dsimp only
  sl_unfold_words
  rw [View.canon_unit_zero hz2]
  simp only [View.readAt_eq_ld, harg2.read_unread, View.ld_unit_zero (S := S64x64x768) hz3]

/-- Second sequence step: the accumulator, found at `xs0`, is left at `xs0` plus the tile's sequence sums. -/
theorem scratch_B (c : Dev nD) (i : grid0.Coords) (arg2 : Memref sig .tc .vmem S64x64x768 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S768x384 .f32) (harg5 : arg5.IsWhole) (arg6 : Memref sig .tc .vmem S1x384 .f32) (harg6 : arg6.IsWhole) (arg7 : Memref sig .tc .vmem S64x384 .f32) (harg7 : arg7.IsWhole) (arg8 : Memref sig .tc .vmem S64x768 .f32) (harg8 : arg8.IsWhole) (hc0 : ¬cond0_0 i) (hc1 : cond0_1 i) (hc2 : cond0_2 i)
    (x0 : Vec F S64x64x768 .f32) (x1 : Vec F S768x768 .f32) (x2 : Vec F S1x768 .f32) (x3 : Vec F S768x384 .f32) (x4 : Vec F S1x384 .f32) (xs0 : Vec F S64x768 .f32) :
    sout0_B_0 c i arg2 harg2 arg3 harg3 arg4 harg4 arg5 harg5 arg6 harg6 arg7 harg7 arg8 harg8 hc0 hc1 hc2 x0 x1 x2 x3 x4 xs0 = k0_pay3 x0 xs0 := by
  unfold sout0_B_0
  rw [View.read_writes_eq_canon _ _ _ (scover0_B_0 c i arg2 harg2 arg3 harg3 arg4 harg4 arg5 harg5 arg6 harg6 arg7 harg7 arg8 harg8 hc0 hc1 hc2 x0 x1 x2 x3 x4 xs0)]
  unfold kernelRun0_B
  dsimp only
  sl_unfold_words
  rw [View.canon_unit_zero hz2]
  simp only [View.readAt_eq_ld, harg2.read_unread, harg8.read_unread, View.ld_unit_zero (S := S64x64x768) hz3,
    View.ld_unit_zero (S := S64x768) hz2]

/-- Second sequence step: the output block is left at the head of the updated accumulator, which the body reads
    back from the scratch after storing it. -/
theorem out_B (c : Dev nD) (i : grid0.Coords) (arg2 : Memref sig .tc .vmem S64x64x768 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S768x384 .f32) (harg5 : arg5.IsWhole) (arg6 : Memref sig .tc .vmem S1x384 .f32) (harg6 : arg6.IsWhole) (arg7 : Memref sig .tc .vmem S64x384 .f32) (harg7 : arg7.IsWhole) (arg8 : Memref sig .tc .vmem S64x768 .f32) (harg8 : arg8.IsWhole) (hc0 : ¬cond0_0 i) (hc1 : cond0_1 i) (hc2 : cond0_2 i)
    (x0 : Vec F S64x64x768 .f32) (x1 : Vec F S768x768 .f32) (x2 : Vec F S1x768 .f32) (x3 : Vec F S768x384 .f32) (x4 : Vec F S1x384 .f32) (xs0 : Vec F S64x768 .f32) :
    out0_B_5 c i arg2 harg2 arg3 harg3 arg4 harg4 arg5 harg5 arg6 harg6 arg7 harg7 arg8 harg8 hc0 hc1 hc2 x0 x1 x2 x3 x4 xs0 = k0_pay4 (k0_pay3 x0 xs0) x1 x2 x3 x4 := by
  unfold out0_B_5
  rw [View.read_writes_eq_canon _ _ _ (cover0_B_5 c i arg2 harg2 arg3 harg3 arg4 harg4 arg5 harg5 arg6 harg6 arg7 harg7 arg8 harg8 hc0 hc1 hc2 x0 x1 x2 x3 x4 xs0)]
  unfold kernelRun0_B
  dsimp only
  sl_unfold_words
  rw [View.canon_unit_zero hz2]
  simp only [View.readAt_eq_ld, harg2.read_unread, harg3.read_unread, harg4.read_unread, harg5.read_unread,
    harg6.read_unread, harg8.read_unread, View.readCov_unit_zero (S := S64x768) _ hz2,
    View.ld_unit_zero (S := S64x64x768) hz3, View.ld_unit_zero (S := S64x768) hz2, View.ld_unit_zero (S := S768x768) hz2,
    View.ld_unit_zero (S := S1x768) hz2, View.ld_unit_zero (S := S768x384) hz2, View.ld_unit_zero (S := S1x384) hz2]

end Cert.KernelIdeal.Pieces

end
-- ==== Proof.ScaleLaw.lean ====
/-
  Moving a fixed scale across a contraction, on the extended reals.

  The two programs form the hidden layer of the head from the same row of sequence sums `a` and the same
  weight matrix `w`, and differ only in where the mean's factor `c = 2⁻⁷` (one over the sequence length 128)
  is applied: one scales the row first and contracts afterwards, `∑ₖ (aₖ · c) · wₖⱼ`; the other contracts first
  and scales the product, `(∑ₖ aₖ · wₖⱼ) · c`.  Multiplication on the extended reals is commutative and
  associative, so each summand `(aₖ · c) · wₖⱼ` is `(aₖ · wₖⱼ) · c`; and multiplication by a factor that is
  non-negative and not `+∞` distributes over every sum of extended reals, infinite summands included.  Hence
  the two are equal for ALL operands: no finiteness of `a` or `w` is used.
-/
import Idealize.ShloMosaic.PureOps.Ideal.Laws
import Mathlib.Data.EReal.Operations

noncomputable section

namespace Cert.MeanHead

open Idealize.ShloMosaic

/-- The word `0x3C000000` denotes the real `2⁻⁷ = 1/128`. -/
theorem scale_eq : Ideal.ofBits .f32 0x3C000000#32 = ((1 / 128 : ℝ) : EReal) := by
  simp [Ideal.ofBits, Ideal.ieee, -EReal.coe_mul]; norm_num

theorem scale_nonneg : (0 : EReal) ≤ Ideal.ofBits .f32 0x3C000000#32 := by
  rw [scale_eq]; exact EReal.coe_nonneg.mpr (by norm_num)

theorem scale_ne_top : Ideal.ofBits .f32 0x3C000000#32 ≠ ⊤ := by
  rw [scale_eq]; exact EReal.coe_ne_top _

/-- A factor `c` with `0 ≤ c` and `c ≠ +∞` comes out of any finite sum of extended reals, on the right. -/
theorem sum_mul_right {ι : Type} (s : Finset ι) (f : ι → EReal) {c : EReal} (h0 : 0 ≤ c) (ht : c ≠ ⊤) :
    ∑ k ∈ s, f k * c = (∑ k ∈ s, f k) * c := by
  classical
  induction s using Finset.induction_on with
  | empty => simp
  | insert a s ha ih =>
    rw [Finset.sum_insert ha, Finset.sum_insert ha, ih, EReal.right_distrib_of_nonneg_of_ne_top h0 ht]

/-- The contraction of a scaled row is the scaled contraction: `∑ₖ (aₖ · c) · wₖ = (∑ₖ aₖ · wₖ) · c`. -/
theorem sum_scaled_mul {ι : Type} [Fintype ι] (a w : ι → EReal) {c : EReal} (h0 : 0 ≤ c) (ht : c ≠ ⊤) :
    ∑ k, (a k * c) * w k = (∑ k, a k * w k) * c := by
  rw [← sum_mul_right _ _ h0 ht]
  exact Finset.sum_congr rfl fun k _ => mul_right_comm _ _ _

/-- A change of float format is the identity on extended reals: a narrowed vector is the vector. -/
theorem truncf_id {s : Shape} (x : FVec Ideal s .f32) (h : FTy.bits .bf16 < FTy.bits .f32) :
    (truncf .bf16 x h : s.Idx → EReal) = x := rfl

/-- The matrix product, into a zero accumulator, of the row scaled by `2⁻⁷` (both operands narrowed, which
    changes nothing here) is the matrix product of the row, scaled by `2⁻⁷` afterwards. -/
theorem matmul_scale {sl sr so : Shape} (d : DotDims sl sr so) (a : FVec Ideal sl .f32) (w : FVec Ideal sr .f32)
    (h1 h2 : FTy.bits .bf16 < FTy.bits .f32) :
    matmul d none (truncf .bf16 (mulf a (broadcast sl (Scalar.ofBits .f32 0x3C000000#32))) h1) (truncf .bf16 w h2)
        (constant so .f32 0x00000000#32)
      = mulf (matmul d none a w (constant so .f32 0x00000000#32)) (broadcast so (Scalar.ofBits .f32 0x3C000000#32)) := by
  funext j
  simp only [matmul, mulf, truncf, broadcast, Ideal.matmul_constant_zero_apply, Ideal.truncf_def, Ideal.mulf_def]
  exact sum_scaled_mul _ _ scale_nonneg scale_ne_top

/-- The matrix product of narrowed operands is the matrix product of the operands. -/
theorem matmul_narrowed {sl sr so : Shape} (d : DotDims sl sr so) (a : FVec Ideal sl .f32) (w : FVec Ideal sr .f32)
    (h1 h2 : FTy.bits .bf16 < FTy.bits .f32) (acc : FVec Ideal so .f32) :
    matmul d none (truncf .bf16 a h1) (truncf .bf16 w h2) acc = matmul d none a w acc := rfl

end Cert.MeanHead

end
-- ==== Proof.Spec.lean ====
/-
  The length-prediction head as ONE function of its five arrays.

  For `x : [128, 128, 768]` (batch, sequence, hidden), weights `w1 : [768, 768]`, `w2 : [768, 384]` and biases
  `b1 : [1, 768]`, `b2 : [1, 384]`, row `r` of the result `[128, 384]` is
      log_softmax ( relu ( mean_s x[r, s, ·] · w1 + b1 ) · w2 + b2 ).
  Both programs compute it in two batch halves (rows `64·b … 64·b + 63`) and, inside a half, in two sequence
  halves (positions `64·k … 64·k + 63`): the sequence sums of the two tiles are added in order, and the rest
  of the head is applied to that sum, 64 rows at a time.  `tile` is the `[64, 64, 768]` tile of `x`,
  `headBlock` the 64 result rows of a batch half, `head` the whole result: row `r` is row `r mod 64` of batch
  half `r / 64`.

  The two programs differ in two places only.  The first sums `part₀ + part₁` where the second sums
  `(0 + part₀) + part₁`: equal because `0 + y = y` on the extended reals.  The first takes the mean before the
  first matrix product, `∑ₖ (aₖ · 2⁻⁷) · w1ₖⱼ`, the second after it, `(∑ₖ aₖ · w1ₖⱼ) · 2⁻⁷`: equal because a
  non-negative finite factor comes out of any sum of extended reals (`Cert.MeanHead.matmul_scale`).  The
  narrowing of the matrix products' operands to a shorter float format is the identity on extended reals.
  Neither step uses that the inputs are finite.
-/
import proofs.«134908_g2000004684805239_pallasbulk_542_8_alg».proof.Proof.Gen.KernelIdeal.Skeleton
import proofs.«134908_g2000004684805239_pallasbulk_542_8_alg».proof.Proof.Gen.ReferenceIdeal.Skeleton
import proofs.«134908_g2000004684805239_pallasbulk_542_8_alg».proof.Proof.ScaleLaw
import Idealize.ShloMosaic.Lib.ValueIdx
import Idealize.ShloMosaic.Lib.Pipeline.Value

noncomputable section

open Idealize.ShloMosaic Idealize.ShloMosaic.ValueIdx

/-! ## The head in the first program's operations -/

namespace Cert.KernelIdeal.Spec

open Cert.KernelIdeal Cert.KernelIdeal.Gen

variable {F : FTy → Type} [FloatOps F]

/-- The tile of `x` for batch half `b` and sequence half `k`: entry `(r, s, h)` is `x[64·b + r, 64·k + s, h]`. -/
def tile (x : Vec F S128x128x768 .f32) (b k : Fin 2) : Vec F S64x64x768 .f32 := fun y =>
  x (ix3 (⟨64 * b.val + (y 0).val, by have h : (y 0).val < 64 := (y 0).isLt; have := b.isLt; omega⟩ : Fin 128)
         (⟨64 * k.val + (y 1).val, by have h : (y 1).val < 64 := (y 1).isLt; have := k.isLt; omega⟩ : Fin 128)
         (⟨(y 2).val, (y 2).isLt⟩ : Fin 768))

/-- The 64 result rows of batch half `b`: the head applied to the sum, over both sequence halves, of the tiles'
    sequence sums (first half, then the second added to it). -/
def headBlock (x : Vec F S128x128x768 .f32) (w1 : Vec F S768x768 .f32) (b1 : Vec F S1x768 .f32)
    (w2 : Vec F S768x384 .f32) (b2 : Vec F S1x384 .f32) (b : Fin 2) : Vec F S64x384 .f32 :=
  k0_pay4 (k0_pay3 (tile x b 1) (k0_pay2 (tile x b 0))) w1 b1 w2 b2

/-- The whole result: row `r` is row `r mod 64` of batch half `r / 64`. -/
def head (x : Vec F S128x128x768 .f32) (w1 : Vec F S768x768 .f32) (b1 : Vec F S1x768 .f32)
    (w2 : Vec F S768x384 .f32) (b2 : Vec F S1x384 .f32) : Vec F S128x384 .f32 := fun i =>
  headBlock x w1 b1 w2 b2 ⟨(i 0).val / 64, by have h : (i 0).val < 128 := (i 0).isLt; omega⟩
    (ix2 (⟨(i 0).val % 64, Nat.mod_lt _ (by decide)⟩ : Fin 64) (⟨(i 1).val, (i 1).isLt⟩ : Fin 384))

/-- A row of the result read through its batch half: the entry at array row `64·b + r` is entry `r` of batch half `b`. -/
theorem head_row (x : Vec F S128x128x768 .f32) (w1 : Vec F S768x768 .f32) (b1 : Vec F S1x768 .f32)
    (w2 : Vec F S768x384 .f32) (b2 : Vec F S1x384 .f32) (b : Fin 2) (j : S64x384.Idx) (i : S128x384.Idx)
    (h0 : (i 0).val = 64 * b.val + (j 0).val) (h1 : (i 1).val = (j 1).val) :
    head x w1 b1 w2 b2 i = headBlock x w1 b1 w2 b2 b j := by
  have hj0 : (j 0).val < 64 := (j 0).isLt
  have hb : (⟨(i 0).val / 64, by have h : (i 0).val < 128 := (i 0).isLt; omega⟩ : Fin 2) = b := Fin.ext (by
    show (i 0).val / 64 = b.val; omega)
  have hj : ix2 (⟨(i 0).val % 64, Nat.mod_lt _ (by decide)⟩ : Fin 64) (⟨(i 1).val, (i 1).isLt⟩ : Fin 384) = j := by
    funext a
    match a with
    | ⟨0, _⟩ => exact Fin.ext (by show (i 0).val % 64 = (j 0).val; omega)
    | ⟨1, _⟩ => exact Fin.ext (by show (i 1).val = (j 1).val; exact h1)
  unfold head
  rw [hb, hj]

end Cert.KernelIdeal.Spec

/-! ## The head in the second program's operations -/

namespace Cert.ReferenceIdeal.Spec

open Cert.ReferenceIdeal Cert.ReferenceIdeal.Gen

variable {F : FTy → Type} [FloatOps F]

/-- The tile of `x` for batch half `b` and sequence half `k`: entry `(r, s, h)` is `x[64·b + r, 64·k + s, h]`. -/
def tile (x : Vec F S128x128x768 .f32) (b k : Fin 2) : Vec F S64x64x768 .f32 := fun y =>
  x (ix3 (⟨64 * b.val + (y 0).val, by have h : (y 0).val < 64 := (y 0).isLt; have := b.isLt; omega⟩ : Fin 128)
         (⟨64 * k.val + (y 1).val, by have h : (y 1).val < 64 := (y 1).isLt; have := k.isLt; omega⟩ : Fin 128)
         (⟨(y 2).val, (y 2).isLt⟩ : Fin 768))

/-- The 64 result rows of batch half `b`: the accumulator starts at zero, takes the first sequence half's sums, then
    the second's, and the head is applied to it. -/
def headBlock (x : Vec F S128x128x768 .f32) (w1 : Vec F S768x768 .f32) (b1 : Vec F S1x768 .f32)
    (w2 : Vec F S768x384 .f32) (b2 : Vec F S1x384 .f32) (b : Fin 2) : Vec F S64x384 .f32 :=
  k0_pay3 (k0_pay2 (tile x b 1) (k0_pay2 (tile x b 0) k0_pay1)) w1 b1 w2 b2

/-- The whole result: row `r` is row `r mod 64` of batch half `r / 64`. -/
def head (x : Vec F S128x128x768 .f32) (w1 : Vec F S768x768 .f32) (b1 : Vec F S1x768 .f32)
    (w2 : Vec F S768x384 .f32) (b2 : Vec F S1x384 .f32) : Vec F S128x384 .f32 := fun i =>
  headBlock x w1 b1 w2 b2 ⟨(i 0).val / 64, by have h : (i 0).val < 128 := (i 0).isLt; omega⟩
    (ix2 (⟨(i 0).val % 64, Nat.mod_lt _ (by decide)⟩ : Fin 64) (⟨(i 1).val, (i 1).isLt⟩ : Fin 384))

/-- A row of the result read through its batch half: the entry at array row `64·b + r` is entry `r` of batch half `b`. -/
theorem head_row (x : Vec F S128x128x768 .f32) (w1 : Vec F S768x768 .f32) (b1 : Vec F S1x768 .f32)
    (w2 : Vec F S768x384 .f32) (b2 : Vec F S1x384 .f32) (b : Fin 2) (j : S64x384.Idx) (i : S128x384.Idx)
    (h0 : (i 0).val = 64 * b.val + (j 0).val) (h1 : (i 1).val = (j 1).val) :
    head x w1 b1 w2 b2 i = headBlock x w1 b1 w2 b2 b j := by
  have hj0 : (j 0).val < 64 := (j 0).isLt
  have hb : (⟨(i 0).val / 64, by have h : (i 0).val < 128 := (i 0).isLt; omega⟩ : Fin 2) = b := Fin.ext (by
    show (i 0).val / 64 = b.val; omega)
  have hj : ix2 (⟨(i 0).val % 64, Nat.mod_lt _ (by decide)⟩ : Fin 64) (⟨(i 1).val, (i 1).isLt⟩ : Fin 384) = j := by
    funext a
    match a with
    | ⟨0, _⟩ => exact Fin.ext (by show (i 0).val % 64 = (j 0).val; omega)
    | ⟨1, _⟩ => exact Fin.ext (by show (i 1).val = (j 1).val; exact h1)
  unfold head
  rw [hb, hj]

end Cert.ReferenceIdeal.Spec

/-! ## On the extended reals the two are one function -/

namespace Cert.MeanHead

/-- Adding a tile's sequence sums to an accumulator is the same operation in both programs. -/
theorem accumulate_eq (x : Vec Ideal Cert.KernelIdeal.S64x64x768 .f32) (a : Vec Ideal Cert.KernelIdeal.S64x768 .f32) :
    Cert.ReferenceIdeal.Gen.k0_pay2 (F := Ideal) x a = Cert.KernelIdeal.Gen.k0_pay3 (F := Ideal) x a := rfl

/-- Starting from the zero accumulator, the first tile's sums added to it are the first tile's sums: `0 + y = y`. -/
theorem first_eq (x : Vec Ideal Cert.KernelIdeal.S64x64x768 .f32) :
    Cert.ReferenceIdeal.Gen.k0_pay2 (F := Ideal) x (Cert.ReferenceIdeal.Gen.k0_pay1 (F := Ideal))
      = Cert.KernelIdeal.Gen.k0_pay2 (F := Ideal) x := by
  unfold Cert.ReferenceIdeal.Gen.k0_pay2 Cert.ReferenceIdeal.Gen.k0_pay1 Cert.KernelIdeal.Gen.k0_pay2
    Cert.KernelIdeal.Gen.k0_pay1
  funext j
  simp only [shapeCast_self]
  show Ideal.ofBits .f32 0x00000000#32 + _ = _
  rw [Ideal.ofBits_zero_f32, zero_add]

/-- The rest of the head, from the accumulated sums on: the mean taken after the first matrix product is the mean
    taken before it, and narrowing the products' operands changes nothing. -/
theorem epilogue_eq (a : Vec Ideal Cert.KernelIdeal.S64x768 .f32) (w1 : Vec Ideal Cert.KernelIdeal.S768x768 .f32)
    (b1 : Vec Ideal Cert.KernelIdeal.S1x768 .f32) (w2 : Vec Ideal Cert.KernelIdeal.S768x384 .f32)
    (b2 : Vec Ideal Cert.KernelIdeal.S1x384 .f32) :
    Cert.ReferenceIdeal.Gen.k0_pay3 (F := Ideal) a w1 b1 w2 b2 = Cert.KernelIdeal.Gen.k0_pay4 (F := Ideal) a w1 b1 w2 b2 := by
  unfold Cert.ReferenceIdeal.Gen.k0_pay3 Cert.KernelIdeal.Gen.k0_pay4
  dsimp only
  rw [matmul_scale, matmul_narrowed]
  rfl

/-- The two programs' heads are one function of the arrays. -/
theorem head_eq (x : Vec Ideal Cert.KernelIdeal.S128x128x768 .f32) (w1 : Vec Ideal Cert.KernelIdeal.S768x768 .f32)
    (b1 : Vec Ideal Cert.KernelIdeal.S1x768 .f32) (w2 : Vec Ideal Cert.KernelIdeal.S768x384 .f32)
    (b2 : Vec Ideal Cert.KernelIdeal.S1x384 .f32) :
    Cert.ReferenceIdeal.Spec.head (F := Ideal) x w1 b1 w2 b2 = Cert.KernelIdeal.Spec.head (F := Ideal) x w1 b1 w2 b2 := by
  funext i
  unfold Cert.ReferenceIdeal.Spec.head Cert.KernelIdeal.Spec.head Cert.ReferenceIdeal.Spec.headBlock
    Cert.KernelIdeal.Spec.headBlock
  rw [first_eq, accumulate_eq, epilogue_eq]
  rfl

end Cert.MeanHead

end
-- ==== Proof.KernelValue.lean ====
/-
  The result array after the run is the head of the argument arrays.

  The grid has four points `t = 2·b + k`: batch half `b`, sequence half `k`.  The input window of `x` stages at
  point `t` the tile of batch half `t / 2` and sequence half `t mod 2`; the four parameter windows stage their
  whole arrays at every point.  The output window's block is rows `64·(t / 2) … 64·(t / 2) + 63` and is written
  back at the odd points only.  At an odd point the scratch accumulator holds what the even point before it
  left, the first tile's sequence sums, so the block written back is the head of the two tiles' accumulated sums:
  the 64 rows of `head` for that batch half.  The two odd points' blocks cover all 128 rows.
-/
import proofs.«134908_g2000004684805239_pallasbulk_542_8_alg».proof.Proof.Gen.KernelIdeal.Value
import proofs.«134908_g2000004684805239_pallasbulk_542_8_alg».proof.Proof.KernelPieces
import proofs.«134908_g2000004684805239_pallasbulk_542_8_alg».proof.Proof.Spec

noncomputable section

open Idealize.ShloMosaic Idealize.ShloMosaic.TcCoe Idealize.SL.Sem Idealize.ShloMosaic.ValueIdx
open Idealize.ShloMosaic.Pipeline (Dat)

namespace Cert.KernelIdeal.HeadValue

open Cert.KernelIdeal Cert.KernelIdeal.Gen Cert.KernelIdeal.Spec

variable {F : FTy → Type} [FloatOps F]
variable (m : (ℓ : Loc nD τ sig) → Buf (Elt F) ℓ) (ρ : Dev nD → PrngReg)

/-- The printed index maps over the grid: the tile window follows `(t / 2, t mod 2, 0)`, the parameter windows stay
    at the origin, the output window follows `(t / 2, 0)`. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 2 ∧ win0_5.index t (1 : Fin 2) = 0 :=
  (by decide +kernel : ∀ t : Fin grid0.N, _)

/-- The tile window's block at point `t` is the tile of batch half `b = t / 2` and sequence half `k = t mod 2`. -/
theorem xblk_eq (c : Dev nD) (t : Fin cfg0.N) (b k : Fin 2) (hb : t.val / 2 = b.val) (hk : t.val % 2 = k.val) :
    (iblk m c 0 t : Vec F S64x64x768 .f32) = tile (V m c main_arg0) b k := by
  obtain ⟨e0, e1, e2, -⟩ := idx_facts t
  funext j
  unfold iblk tile
  rw [View.read_apply]
  show V m c main_arg0 _ = V m c main_arg0 _
  congr 1
  funext a
  apply Fin.ext
  match a with
  | ⟨0, _⟩ => show win0_0.index t (0 : Fin 3) * 64 + 1 * (j 0).val = 64 * b.val + (j 0).val; rw [e0]; omega
  | ⟨1, _⟩ => show win0_0.index t (1 : Fin 3) * 64 + 1 * (j 1).val = 64 * k.val + (j 1).val; rw [e1]; omega
  | ⟨2, _⟩ => show win0_0.index t (2 : Fin 3) * 768 + 1 * (j 2).val = (j 2).val; rw [e2]; omega

/-- The first weight window's block is the whole array. -/
theorem w1blk_eq (c : Dev nD) (t : Fin cfg0.N) : (iblk m c 1 t : Vec F S768x768 .f32) = V m c main_arg1 := by
  obtain ⟨-, -, -, e0, e1, -⟩ := idx_facts t
  funext j
  unfold iblk
  rw [View.read_apply]
  show V m c main_arg1 _ = V m c main_arg1 j
  congr 1
  funext a
  apply Fin.ext
  match a with
  | ⟨0, _⟩ => show win0_1.index t (0 : Fin 2) * 768 + 1 * (j 0).val = (j 0).val; rw [e0]; omega
  | ⟨1, _⟩ => show win0_1.index t (1 : Fin 2) * 768 + 1 * (j 1).val = (j 1).val; rw [e1]; omega

/-- The first bias window's block is the whole array. -/
theorem b1blk_eq (c : Dev nD) (t : Fin cfg0.N) : (iblk m c 2 t : Vec F S1x768 .f32) = V m c main_arg2 := by
  obtain ⟨-, -, -, -, -, e0, e1, -⟩ := idx_facts t
  funext j
  unfold iblk
  rw [View.read_apply]
  show V m c main_arg2 _ = V m c main_arg2 j
  congr 1
  funext a
  apply Fin.ext
  match a with
  | ⟨0, _⟩ => show win0_2.index t (0 : Fin 2) * 1 + 1 * (j 0).val = (j 0).val; rw [e0]; omega
  | ⟨1, _⟩ => show win0_2.index t (1 : Fin 2) * 768 + 1 * (j 1).val = (j 1).val; rw [e1]; omega

/-- The second weight window's block is the whole array. -/
theorem w2blk_eq (c : Dev nD) (t : Fin cfg0.N) : (iblk m c 3 t : Vec F S768x384 .f32) = V m c main_arg3 := by
  obtain ⟨-, -, -, -, -, -, -, e0, e1, -⟩ := idx_facts t
  funext j
  unfold iblk
  rw [View.read_apply]
  show V m c main_arg3 _ = V m c main_arg3 j
  congr 1
  funext a
  apply Fin.ext
  match a with
  | ⟨0, _⟩ => show win0_3.index t (0 : Fin 2) * 768 + 1 * (j 0).val = (j 0).val; rw [e0]; omega
  | ⟨1, _⟩ => show win0_3.index t (1 : Fin 2) * 384 + 1 * (j 1).val = (j 1).val; rw [e1]; omega

/-- The second bias window's block is the whole array. -/
theorem b2blk_eq (c : Dev nD) (t : Fin cfg0.N) : (iblk m c 4 t : Vec F S1x384 .f32) = V m c main_arg4 := by
  obtain ⟨-, -, -, -, -, -, -, -, -, e0, e1, -⟩ := idx_facts t
  funext j
  unfold iblk
  rw [View.read_apply]
  show V m c main_arg4 _ = V m c main_arg4 j
  congr 1
  funext a
  apply Fin.ext
  match a with
  | ⟨0, _⟩ => show win0_4.index t (0 : Fin 2) * 1 + 1 * (j 0).val = (j 0).val; rw [e0]; omega
  | ⟨1, _⟩ => show win0_4.index t (1 : Fin 2) * 384 + 1 * (j 1).val = (j 1).val; rw [e1]; omega

/-- After an even point the scratch accumulator holds that point's tile's sequence sums. -/
theorem scratch_even (c : Dev nD) (t : Fin cfg0.N) (h1 : t.val % 2 = 1)
    (hp : t.val - 1 < cfg0.N) :
    (outsAt0 m c (t.val - 1) hp).2 = k0_pay2 (iblk m c 0 ⟨t.val - 1, hp⟩) := by
  show (outsAt0 m c (⟨t.val - 1, hp⟩ : Fin cfg0.N).val (⟨t.val - 1, hp⟩ : Fin cfg0.N).isLt).2 = _
  rw [outsAt0_A m c ⟨t.val - 1, hp⟩ (by dsimp only; omega) (by dsimp only; omega) (by dsimp only; omega)]
  dsimp only
  exact Pieces.scratch_A c (grid0.coords ⟨t.val - 1, hp⟩) (ms0_0 ⟨t.val - 1, hp⟩) (hs0_0 ⟨t.val - 1, hp⟩) (ms0_1 ⟨t.val - 1, hp⟩) (hs0_1 ⟨t.val - 1, hp⟩) (ms0_2 ⟨t.val - 1, hp⟩) (hs0_2 ⟨t.val - 1, hp⟩) (ms0_3 ⟨t.val - 1, hp⟩) (hs0_3 ⟨t.val - 1, hp⟩) (ms0_4 ⟨t.val - 1, hp⟩) (hs0_4 ⟨t.val - 1, hp⟩) (ms0_5 ⟨t.val - 1, hp⟩) (hs0_5 ⟨t.val - 1, hp⟩) scM0_0 (Memref.isWhole_whole _) _ _ _ (iblk m c 0 ⟨t.val - 1, hp⟩) (iblk m c 1 ⟨t.val - 1, hp⟩) (iblk m c 2 ⟨t.val - 1, hp⟩) (iblk m c 3 ⟨t.val - 1, hp⟩) (iblk m c 4 ⟨t.val - 1, hp⟩)

/-- What an odd point writes back is its batch half's 64 rows of the head of the argument arrays. -/
theorem flushed_eq (c : Dev nD) (t : Fin cfg0.N) (hf : (cfg0.win 5).flush t = true) :
    (dats m 0 c).flushed 5 t = ((cfg0.win 5).blk t).view.read (Elt F)
      (head (V m c main_arg0) (V m c main_arg1) (V m c main_arg2) (V m c main_arg3) (V m c main_arg4)) := by
  have hN : t.val < 4 := lt_of_lt_of_eq t.isLt (show cfg0.N = 4 from N_0)
  have h1 : t.val % 2 = 1 := (flush0_5 t).mp hf
  have h0 : ¬t.val % 2 = 0 := by omega
  have hp : t.val - 1 < cfg0.N := Nat.lt_of_le_of_lt (Nat.sub_le _ _) t.isLt
  obtain ⟨-, -, -, -, -, -, -, -, -, -, -, e0, e1⟩ := idx_facts t
  rw [Value.flushed5_B m c t h0 h1 h1]
  rw [Pieces.out_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ _ (iblk m c 0 t) (iblk m c 1 t) (iblk m c 2 t) (iblk m c 3 t) (iblk m c 4 t) (outsAt0 m c (t.val - 1) hp).2]
  rw [scratch_even m c t h1 hp]
  rw [xblk_eq m c t ⟨t.val / 2, by omega⟩ 1 rfl h1,
    xblk_eq m c ⟨t.val - 1, hp⟩ ⟨t.val / 2, by omega⟩ 0 (by dsimp only; omega) (by dsimp only; omega),
    w1blk_eq m c t, b1blk_eq m c t, w2blk_eq m c t, b2blk_eq m c t]
  funext j
  rw [View.read_apply]
  refine Eq.trans ?_ (head_row (V m c main_arg0) (V m c main_arg1) (V m c main_arg2) (V m c main_arg3) (V m c main_arg4)
    ⟨t.val / 2, by omega⟩ j (((cfg0.win 5).blk t).view.emb j) ?_ ?_).symm
  · rfl
  · show win0_5.index t (0 : Fin 2) * 64 + 1 * (j 0).val = 64 * (t.val / 2) + (j 0).val
    rw [e0]; omega
  · show win0_5.index t (1 : Fin 2) * 384 + 1 * (j 1).val = (j 1).val
    rw [e1]; omega

/-- An index of the result array is in point `t`'s block iff each coordinate is in the block's range on its axis. -/
theorem mem_blk (t : Fin cfg0.N) (i : S128x384.Idx) :
    i ∈ ((cfg0.win 5).blk t).view.set ↔ ∀ a : Fin 2, win0_5.index t a * S64x384.size a ≤ (i a).val ∧ (i a).val < win0_5.index t a * S64x384.size a + S64x384.size a := by
  show i ∈ ((View.whole main_v0).slice (win0_5.rect t)).set ↔ _
  rw [View.set_slice_whole, Rect.mem_set_unit]
  exact Iff.rfl

/-- Every row is in the block of the odd point of its batch half. -/
theorem cover (i : S128x384.Idx) :
    ∃ t : Fin cfg0.N, (cfg0.win 5).flush t = true ∧ i ∈ ((cfg0.win 5).blk t).view.set := by
  have hi0 : (i 0).val < 128 := (i 0).isLt
  have hi1 : (i 1).val < 384 := (i 1).isLt
  have hN : cfg0.N = 4 := N_0
  refine ⟨⟨2 * ((i 0).val / 64) + 1, by omega⟩, (flush0_5 _).mpr (by dsimp only; omega), ?_⟩
  obtain ⟨-, -, -, -, -, -, -, -, -, -, -, e0, e1⟩ := idx_facts ⟨2 * ((i 0).val / 64) + 1, by omega⟩
  rw [mem_blk]
  intro a
  match a with
  | ⟨0, _⟩ =>
    show win0_5.index _ (0 : Fin 2) * 64 ≤ (i 0).val ∧ (i 0).val < win0_5.index _ (0 : Fin 2) * 64 + 64
    rw [e0]; dsimp only; omega
  | ⟨1, _⟩ =>
    show win0_5.index _ (1 : Fin 2) * 384 ≤ (i 1).val ∧ (i 1).val < win0_5.index _ (1 : Fin 2) * 384 + 384
    rw [e1]; omega

/-- The result array after the run is the head of the argument arrays. -/
theorem final (c : Dev nD) : (dats m 0 c).arrAt 5 cfg0.N
    = head (V m c main_arg0) (V m c main_arg1) (V m c main_arg2) (V m c main_arg3) (V m c main_arg4) :=
  (dats m 0 c).arrAt_eq_of_cover 5 _ (fun t hf => flushed_eq m c t hf) cover

/-- Every weakly fair execution ends with the result array at the head of the argument arrays as launched, and
    the arguments unchanged. -/
theorem run : θ_run defs (onTc (τ := τ) (main (F := F))) ⟨m, fun _ => 0, ρ⟩ fun r => ∀ c : Dev nD,
      r.2.mem ((c : Thread nD τ).loc main_v0)
        = head (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.HeadValue

end
-- ==== Proof.RefPieces.lean ====
/-
  What one run of the reference's body leaves behind, read as values.

  The accumulator of sequence sums lives in a scratch buffer that is carried from one grid point to the next.
  At the first sequence step of a batch half the body stores zeros into it, reads them back, and stores the zeros
  plus the tile's sequence sums; at the second it stores the old contents plus the tile's sums, reads the result
  back, and stores the head of that sum into the output block.  Each store covers its whole buffer, so what a
  buffer holds afterwards is the payload of the last store into it, a load after a store reads that store's
  payload, and a load of an untouched buffer reads the contents it is owned at.
-/
import proofs.«134908_g2000004684805239_pallasbulk_542_8_alg».proof.Proof.Gen.ReferenceIdeal.Frame
import Idealize.ShloMosaic.Lib.Pipeline.Value
import Idealize.ShloMosaic.Lib.Tactic

noncomputable section

open Idealize.ShloMosaic Idealize.ShloMosaic.TcCoe Idealize.SL.Sem

namespace Cert.ReferenceIdeal.Pieces

open Cert.ReferenceIdeal Cert.ReferenceIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First sequence step: the accumulator is left at zero plus the tile's sequence sums. -/
theorem scratch_A (c : Dev nD) (i : grid0.Coords) (arg2 : Memref sig .tc .vmem S64x64x768 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S768x384 .f32) (harg5 : arg5.IsWhole) (arg6 : Memref sig .tc .vmem S1x384 .f32) (harg6 : arg6.IsWhole) (arg7 : Memref sig .tc .vmem S64x384 .f32) (harg7 : arg7.IsWhole) (arg8 : Memref sig .tc .vmem S64x768 .f32) (harg8 : arg8.IsWhole) (hc0 : cond0_0 i) (hc1 : ¬cond0_1 i)
    (x0 : Vec F S64x64x768 .f32) (x1 : Vec F S768x768 .f32) (x2 : Vec F S1x768 .f32) (x3 : Vec F S768x384 .f32) (x4 : Vec F S1x384 .f32) :
    sout0_A_0 c i arg2 harg2 arg3 harg3 arg4 harg4 arg5 harg5 arg6 harg6 arg7 harg7 arg8 harg8 hc0 hc1 x0 x1 x2 x3 x4 = k0_pay2 x0 k0_pay1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S64x768) hz2]
  simp only [View.readAt_eq_ld, harg2.read_unread, View.readCov_unit_zero (S := S64x768) _ hz2,
    View.ld_unit_zero (S := S64x64x768) hz3]

/-- Second sequence step: the accumulator, found at `xs0`, is left at `xs0` plus the tile's sequence sums. -/
theorem scratch_B (c : Dev nD) (i : grid0.Coords) (arg2 : Memref sig .tc .vmem S64x64x768 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S768x384 .f32) (harg5 : arg5.IsWhole) (arg6 : Memref sig .tc .vmem S1x384 .f32) (harg6 : arg6.IsWhole) (arg7 : Memref sig .tc .vmem S64x384 .f32) (harg7 : arg7.IsWhole) (arg8 : Memref sig .tc .vmem S64x768 .f32) (harg8 : arg8.IsWhole) (hc0 : ¬cond0_0 i) (hc1 : cond0_1 i)
    (x0 : Vec F S64x64x768 .f32) (x1 : Vec F S768x768 .f32) (x2 : Vec F S1x768 .f32) (x3 : Vec F S768x384 .f32) (x4 : Vec F S1x384 .f32) (xs0 : Vec F S64x768 .f32) :
    sout0_B_0 c i arg2 harg2 arg3 harg3 arg4 harg4 arg5 harg5 arg6 harg6 arg7 harg7 arg8 harg8 hc0 hc1 x0 x1 x2 x3 x4 xs0 = k0_pay2 x0 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz2]
  simp only [View.readAt_eq_ld, harg2.read_unread, harg8.read_unread, View.ld_unit_zero (S := S64x64x768) hz3,
    View.ld_unit_zero (S := S64x768) hz2]

/-- Second sequence step: the output block is left at the head of the updated accumulator, which the body reads
    back from the scratch after storing it. -/
theorem out_B (c : Dev nD) (i : grid0.Coords) (arg2 : Memref sig .tc .vmem S64x64x768 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S768x384 .f32) (harg5 : arg5.IsWhole) (arg6 : Memref sig .tc .vmem S1x384 .f32) (harg6 : arg6.IsWhole) (arg7 : Memref sig .tc .vmem S64x384 .f32) (harg7 : arg7.IsWhole) (arg8 : Memref sig .tc .vmem S64x768 .f32) (harg8 : arg8.IsWhole) (hc0 : ¬cond0_0 i) (hc1 : cond0_1 i)
    (x0 : Vec F S64x64x768 .f32) (x1 : Vec F S768x768 .f32) (x2 : Vec F S1x768 .f32) (x3 : Vec F S768x384 .f32) (x4 : Vec F S1x384 .f32) (xs0 : Vec F S64x768 .f32) :
    out0_B_5 c i arg2 harg2 arg3 harg3 arg4 harg4 arg5 harg5 arg6 harg6 arg7 harg7 arg8 harg8 hc0 hc1 x0 x1 x2 x3 x4 xs0 = k0_pay3 (k0_pay2 x0 xs0) x1 x2 x3 x4 := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz2]
  simp only [View.readAt_eq_ld, harg2.read_unread, harg3.read_unread, harg4.read_unread, harg5.read_unread,
    harg6.read_unread, harg8.read_unread, View.readCov_unit_zero (S := S64x768) _ hz2,
    View.ld_unit_zero (S := S64x64x768) hz3, View.ld_unit_zero (S := S64x768) hz2, View.ld_unit_zero (S := S768x768) hz2,
    View.ld_unit_zero (S := S1x768) hz2, View.ld_unit_zero (S := S768x384) hz2, View.ld_unit_zero (S := S1x384) hz2]

end Cert.ReferenceIdeal.Pieces

end
-- ==== Proof.RefValue.lean ====
/-
  The result array after the run is the head of the argument arrays.

  The grid has four points `t = 2·b + k`: batch half `b`, sequence half `k`.  The input window of `x` stages at
  point `t` the tile of batch half `t / 2` and sequence half `t mod 2`; the four parameter windows stage their
  whole arrays at every point.  The output window's block is rows `64·(t / 2) … 64·(t / 2) + 63` and is written
  back at the odd points only.  At an odd point the scratch accumulator holds what the even point before it
  left, the first tile's sequence sums, so the block written back is the head of the two tiles' accumulated sums:
  the 64 rows of `head` for that batch half.  The two odd points' blocks cover all 128 rows.
-/
import proofs.«134908_g2000004684805239_pallasbulk_542_8_alg».proof.Proof.Gen.ReferenceIdeal.Value
import proofs.«134908_g2000004684805239_pallasbulk_542_8_alg».proof.Proof.RefPieces
import proofs.«134908_g2000004684805239_pallasbulk_542_8_alg».proof.Proof.Spec

noncomputable section

open Idealize.ShloMosaic Idealize.ShloMosaic.TcCoe Idealize.SL.Sem Idealize.ShloMosaic.ValueIdx
open Idealize.ShloMosaic.Pipeline (Dat)

namespace Cert.ReferenceIdeal.HeadValue

open Cert.ReferenceIdeal Cert.ReferenceIdeal.Gen Cert.ReferenceIdeal.Spec

variable {F : FTy → Type} [FloatOps F]
variable (m : (ℓ : Loc nD τ sig) → Buf (Elt F) ℓ) (ρ : Dev nD → PrngReg)

/-- The printed index maps over the grid: the tile window follows `(t / 2, t mod 2, 0)`, the parameter windows stay
    at the origin, the output window follows `(t / 2, 0)`. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 2 ∧ win0_5.index t (1 : Fin 2) = 0 :=
  (by decide +kernel : ∀ t : Fin grid0.N, _)

/-- The tile window's block at point `t` is the tile of batch half `b = t / 2` and sequence half `k = t mod 2`. -/
theorem xblk_eq (c : Dev nD) (t : Fin cfg0.N) (b k : Fin 2) (hb : t.val / 2 = b.val) (hk : t.val % 2 = k.val) :
    (iblk m c 0 t : Vec F S64x64x768 .f32) = tile (V m c main_arg0) b k := by
  obtain ⟨e0, e1, e2, -⟩ := idx_facts t
  funext j
  unfold iblk tile
  rw [View.read_apply]
  show V m c main_arg0 _ = V m c main_arg0 _
  congr 1
  funext a
  apply Fin.ext
  match a with
  | ⟨0, _⟩ => show win0_0.index t (0 : Fin 3) * 64 + 1 * (j 0).val = 64 * b.val + (j 0).val; rw [e0]; omega
  | ⟨1, _⟩ => show win0_0.index t (1 : Fin 3) * 64 + 1 * (j 1).val = 64 * k.val + (j 1).val; rw [e1]; omega
  | ⟨2, _⟩ => show win0_0.index t (2 : Fin 3) * 768 + 1 * (j 2).val = (j 2).val; rw [e2]; omega

/-- The first weight window's block is the whole array. -/
theorem w1blk_eq (c : Dev nD) (t : Fin cfg0.N) : (iblk m c 1 t : Vec F S768x768 .f32) = V m c main_arg1 := by
  obtain ⟨-, -, -, e0, e1, -⟩ := idx_facts t
  funext j
  unfold iblk
  rw [View.read_apply]
  show V m c main_arg1 _ = V m c main_arg1 j
  congr 1
  funext a
  apply Fin.ext
  match a with
  | ⟨0, _⟩ => show win0_1.index t (0 : Fin 2) * 768 + 1 * (j 0).val = (j 0).val; rw [e0]; omega
  | ⟨1, _⟩ => show win0_1.index t (1 : Fin 2) * 768 + 1 * (j 1).val = (j 1).val; rw [e1]; omega

/-- The first bias window's block is the whole array. -/
theorem b1blk_eq (c : Dev nD) (t : Fin cfg0.N) : (iblk m c 2 t : Vec F S1x768 .f32) = V m c main_arg2 := by
  obtain ⟨-, -, -, -, -, e0, e1, -⟩ := idx_facts t
  funext j
  unfold iblk
  rw [View.read_apply]
  show V m c main_arg2 _ = V m c main_arg2 j
  congr 1
  funext a
  apply Fin.ext
  match a with
  | ⟨0, _⟩ => show win0_2.index t (0 : Fin 2) * 1 + 1 * (j 0).val = (j 0).val; rw [e0]; omega
  | ⟨1, _⟩ => show win0_2.index t (1 : Fin 2) * 768 + 1 * (j 1).val = (j 1).val; rw [e1]; omega

/-- The second weight window's block is the whole array. -/
theorem w2blk_eq (c : Dev nD) (t : Fin cfg0.N) : (iblk m c 3 t : Vec F S768x384 .f32) = V m c main_arg3 := by
  obtain ⟨-, -, -, -, -, -, -, e0, e1, -⟩ := idx_facts t
  funext j
  unfold iblk
  rw [View.read_apply]
  show V m c main_arg3 _ = V m c main_arg3 j
  congr 1
  funext a
  apply Fin.ext
  match a with
  | ⟨0, _⟩ => show win0_3.index t (0 : Fin 2) * 768 + 1 * (j 0).val = (j 0).val; rw [e0]; omega
  | ⟨1, _⟩ => show win0_3.index t (1 : Fin 2) * 384 + 1 * (j 1).val = (j 1).val; rw [e1]; omega

/-- The second bias window's block is the whole array. -/
theorem b2blk_eq (c : Dev nD) (t : Fin cfg0.N) : (iblk m c 4 t : Vec F S1x384 .f32) = V m c main_arg4 := by
  obtain ⟨-, -, -, -, -, -, -, -, -, e0, e1, -⟩ := idx_facts t
  funext j
  unfold iblk
  rw [View.read_apply]
  show V m c main_arg4 _ = V m c main_arg4 j
  congr 1
  funext a
  apply Fin.ext
  match a with
  | ⟨0, _⟩ => show win0_4.index t (0 : Fin 2) * 1 + 1 * (j 0).val = (j 0).val; rw [e0]; omega
  | ⟨1, _⟩ => show win0_4.index t (1 : Fin 2) * 384 + 1 * (j 1).val = (j 1).val; rw [e1]; omega

/-- After an even point the scratch accumulator holds that point's tile's sequence sums. -/
theorem scratch_even (c : Dev nD) (t : Fin cfg0.N) (h1 : t.val % 2 = 1)
    (hp : t.val - 1 < cfg0.N) :
    (outsAt0 m c (t.val - 1) hp).2 = k0_pay2 (iblk m c 0 ⟨t.val - 1, hp⟩) k0_pay1 := by
  show (outsAt0 m c (⟨t.val - 1, hp⟩ : Fin cfg0.N).val (⟨t.val - 1, hp⟩ : Fin cfg0.N).isLt).2 = _
  rw [outsAt0_A m c ⟨t.val - 1, hp⟩ (by dsimp only; omega) (by dsimp only; omega)]
  dsimp only
  exact Pieces.scratch_A c (grid0.coords ⟨t.val - 1, hp⟩) (ms0_0 ⟨t.val - 1, hp⟩) (hs0_0 ⟨t.val - 1, hp⟩) (ms0_1 ⟨t.val - 1, hp⟩) (hs0_1 ⟨t.val - 1, hp⟩) (ms0_2 ⟨t.val - 1, hp⟩) (hs0_2 ⟨t.val - 1, hp⟩) (ms0_3 ⟨t.val - 1, hp⟩) (hs0_3 ⟨t.val - 1, hp⟩) (ms0_4 ⟨t.val - 1, hp⟩) (hs0_4 ⟨t.val - 1, hp⟩) (ms0_5 ⟨t.val - 1, hp⟩) (hs0_5 ⟨t.val - 1, hp⟩) scM0_0 (Memref.isWhole_whole _) _ _ (iblk m c 0 ⟨t.val - 1, hp⟩) (iblk m c 1 ⟨t.val - 1, hp⟩) (iblk m c 2 ⟨t.val - 1, hp⟩) (iblk m c 3 ⟨t.val - 1, hp⟩) (iblk m c 4 ⟨t.val - 1, hp⟩)

/-- What an odd point writes back is its batch half's 64 rows of the head of the argument arrays. -/
theorem flushed_eq (c : Dev nD) (t : Fin cfg0.N) (hf : (cfg0.win 5).flush t = true) :
    (dats m 0 c).flushed 5 t = ((cfg0.win 5).blk t).view.read (Elt F)
      (head (V m c main_arg0) (V m c main_arg1) (V m c main_arg2) (V m c main_arg3) (V m c main_arg4)) := by
  have hN : t.val < 4 := lt_of_lt_of_eq t.isLt (show cfg0.N = 4 from N_0)
  have h1 : t.val % 2 = 1 := (flush0_5 t).mp hf
  have h0 : ¬t.val % 2 = 0 := by omega
  have hp : t.val - 1 < cfg0.N := Nat.lt_of_le_of_lt (Nat.sub_le _ _) t.isLt
  obtain ⟨-, -, -, -, -, -, -, -, -, -, -, e0, e1⟩ := idx_facts t
  rw [Value.flushed5_B m c t h0 h1]
  rw [Pieces.out_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) (outsAt0 m c (t.val - 1) hp).2]
  rw [scratch_even m c t h1 hp]
  rw [xblk_eq m c t ⟨t.val / 2, by omega⟩ 1 rfl h1,
    xblk_eq m c ⟨t.val - 1, hp⟩ ⟨t.val / 2, by omega⟩ 0 (by dsimp only; omega) (by dsimp only; omega),
    w1blk_eq m c t, b1blk_eq m c t, w2blk_eq m c t, b2blk_eq m c t]
  funext j
  rw [View.read_apply]
  refine Eq.trans ?_ (head_row (V m c main_arg0) (V m c main_arg1) (V m c main_arg2) (V m c main_arg3) (V m c main_arg4)
    ⟨t.val / 2, by omega⟩ j (((cfg0.win 5).blk t).view.emb j) ?_ ?_).symm
  · rfl
  · show win0_5.index t (0 : Fin 2) * 64 + 1 * (j 0).val = 64 * (t.val / 2) + (j 0).val
    rw [e0]; omega
  · show win0_5.index t (1 : Fin 2) * 384 + 1 * (j 1).val = (j 1).val
    rw [e1]; omega

/-- An index of the result array is in point `t`'s block iff each coordinate is in the block's range on its axis. -/
theorem mem_blk (t : Fin cfg0.N) (i : S128x384.Idx) :
    i ∈ ((cfg0.win 5).blk t).view.set ↔ ∀ a : Fin 2, win0_5.index t a * S64x384.size a ≤ (i a).val ∧ (i a).val < win0_5.index t a * S64x384.size a + S64x384.size a := by
  show i ∈ ((View.whole main_v0).slice (win0_5.rect t)).set ↔ _
  rw [View.set_slice_whole, Rect.mem_set_unit]
  exact Iff.rfl

/-- Every row is in the block of the odd point of its batch half. -/
theorem cover (i : S128x384.Idx) :
    ∃ t : Fin cfg0.N, (cfg0.win 5).flush t = true ∧ i ∈ ((cfg0.win 5).blk t).view.set := by
  have hi0 : (i 0).val < 128 := (i 0).isLt
  have hi1 : (i 1).val < 384 := (i 1).isLt
  have hN : cfg0.N = 4 := N_0
  refine ⟨⟨2 * ((i 0).val / 64) + 1, by omega⟩, (flush0_5 _).mpr (by dsimp only; omega), ?_⟩
  obtain ⟨-, -, -, -, -, -, -, -, -, -, -, e0, e1⟩ := idx_facts ⟨2 * ((i 0).val / 64) + 1, by omega⟩
  rw [mem_blk]
  intro a
  match a with
  | ⟨0, _⟩ =>
    show win0_5.index _ (0 : Fin 2) * 64 ≤ (i 0).val ∧ (i 0).val < win0_5.index _ (0 : Fin 2) * 64 + 64
    rw [e0]; dsimp only; omega
  | ⟨1, _⟩ =>
    show win0_5.index _ (1 : Fin 2) * 384 ≤ (i 1).val ∧ (i 1).val < win0_5.index _ (1 : Fin 2) * 384 + 384
    rw [e1]; omega

/-- The result array after the run is the head of the argument arrays. -/
theorem final (c : Dev nD) : (dats m 0 c).arrAt 5 cfg0.N
    = head (V m c main_arg0) (V m c main_arg1) (V m c main_arg2) (V m c main_arg3) (V m c main_arg4) :=
  (dats m 0 c).arrAt_eq_of_cover 5 _ (fun t hf => flushed_eq m c t hf) cover

/-- Every weakly fair execution ends with the result array at the head of the argument arrays as launched, and
    the arguments unchanged. -/
theorem run : θ_run defs (onTc (τ := τ) (main (F := F))) ⟨m, fun _ => 0, ρ⟩ fun r => ∀ c : Dev nD,
      r.2.mem ((c : Thread nD τ).loc main_v0)
        = head (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.ReferenceIdeal.HeadValue

end
-- ==== Proof.lean ====
/-
  The certificate of a sequence-length prediction head: `log_softmax(relu(mean_s(x) · w1 + b1) · w2 + b2)` for
  `x : [128, 128, 768]`, computed by a kernel over a `2 × 2` grid (batch halves × sequence halves) with the
  sequence sums accumulated in a scratch buffer, against a reference of the same grid.

  Frames: each program's run terminates without a fault and leaves its five argument arrays as launched.
  `preserves`: the idealization rewrote no operation, so the statement is `True`.
  `algebraic`: on the extended reals both result arrays are ONE function `head` of the argument arrays
  (Proof/KernelValue.lean, Proof/RefValue.lean: what each odd grid point writes back is its batch half's rows of
  the head of the two tiles' accumulated sequence sums, and the two odd points cover the array).  The programs'
  two heads are equal (Proof/Spec.lean) because `0 + y = y` and because the mean's factor `2⁻⁷`, non-negative
  and finite, may be applied before or after the first matrix product (Proof/ScaleLaw.lean); the finiteness of the
  inputs is not used.
-/
import proofs.«134908_g2000004684805239_pallasbulk_542_8_alg».proof.Defs
import proofs.«134908_g2000004684805239_pallasbulk_542_8_alg».proof.Proof.Gen.Kernel
import proofs.«134908_g2000004684805239_pallasbulk_542_8_alg».proof.Proof.Gen.Kernel.Frame
import proofs.«134908_g2000004684805239_pallasbulk_542_8_alg».proof.Proof.Gen.KernelIdeal
import proofs.«134908_g2000004684805239_pallasbulk_542_8_alg».proof.Proof.Gen.KernelIdeal.Frame
import proofs.«134908_g2000004684805239_pallasbulk_542_8_alg».proof.Proof.Gen.ReferenceIdeal
import proofs.«134908_g2000004684805239_pallasbulk_542_8_alg».proof.Proof.Gen.ReferenceIdeal.Frame
import proofs.«134908_g2000004684805239_pallasbulk_542_8_alg».proof.Proof.Gen.Pre_finite_inputs
import proofs.«134908_g2000004684805239_pallasbulk_542_8_alg».proof.Proof.KernelValue
import proofs.«134908_g2000004684805239_pallasbulk_542_8_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.Gen.frame m ρ

theorem preserves : Cert.preserves_Kernel_KernelIdeal := trivial

/-- Both runs end with the result array at the head of the argument arrays; the arguments agree, and the two
    programs' heads are one function on the extended reals. -/
theorem algebraic : Cert.algebraic_KernelIdeal_ReferenceIdeal := by
  intro m ρ m' ρ' _ hagree
  refine ⟨_, Cert.KernelIdeal.HeadValue.run (F := Ideal) m ρ, ?_⟩
  refine (θ_run Cert.ReferenceIdeal.defs _ _).mono (fun _ h c => ⟨(h c).1.trans ?_, (h c).2⟩)
    (Cert.ReferenceIdeal.HeadValue.run (F := Ideal) m' ρ')
  rw [(hagree c).1, (hagree c).2.1, (hagree c).2.2.1, (hagree c).2.2.2.1, (hagree c).2.2.2.2]
  exact Cert.MeanHead.head_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
